-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_
  bcast_S_S32x512 : S_.BroadcastsInDim S32x512 (![] : Fin 0 → Fin S32x512.rank)
  reducesTo_S32x512_S_d0_1 : S32x512.ReducesTo [0, 1] S_
  bcast_S_S32x256x512 : S_.BroadcastsInDim S32x256x512 (![] : Fin 0 → Fin S32x256x512.rank)
  reducesTo_S32x256x512_S_d0_1_2 : S32x256x512.ReducesTo [0, 1, 2] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg4 : FVec F S32x256 .f32) (main_v13 : IVec S_ 1) (main_v16 : IVec S32x256x512 1) : IVec S_ 1 :=
  let main_c_5 : IVec S_ 1 := constantI S_ 1 1#1
  let main_v17 : IVec S_ 1 := (fun x v => Host.reduce IntOp.andi x v reducesTo_S32x256x512_S_d0_1_2 h_S_) main_v16 main_c_5
  let main_v18 : IVec S_ 1 := andi main_v13 main_v17
  let main_v19 : FVec F S32x256 .f32 := Host.absf main_arg4
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  main_v23

def fn {F : FTy → Type} [FloatOps F] (main_arg0 : FVec F S32x4096x256 .f32) (main_arg1 : FVec F S32x512x256 .f32) (main_arg2 : FVec F S32x512 .f32) (main_arg3 : FVec F S32x256x512 .f32) (main_arg4 : FVec F S32x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x256x512 .f32 := Host.absf main_arg3
  let main_cst_4 : FVec F S_ .f32 := constant S_ .f32 0x7F800000#32
  let main_v15 : FVec F S32x256x512 .f32 := broadcastInDim S32x256x512 ![] bcast_S_S32x256x512 main_cst_4
  let main_v16 : IVec S32x256x512 1 := cmpf .olt main_v14 main_v15
  fn_part1 (F := F) main_arg4 main_v13 main_v16
-- ==== Kernel.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S32x1x512 : Shape := ⟨3, ![32, 1, 512]⟩
abbrev S32x1x256 : Shape := ⟨3, ![32, 1, 256]⟩
abbrev S1x1024x256 : Shape := ⟨3, ![1, 1024, 256]⟩
abbrev S1x512x256 : Shape := ⟨3, ![1, 512, 256]⟩
abbrev S1x1x512 : Shape := ⟨3, ![1, 1, 512]⟩
abbrev S1x256x512 : Shape := ⟨3, ![1, 256, 512]⟩
abbrev S1x1x256 : Shape := ⟨3, ![1, 1, 256]⟩
abbrev S1024x256 : Shape := ⟨2, ![1024, 256]⟩
abbrev S512x256 : Shape := ⟨2, ![512, 256]⟩
abbrev S1x512 : Shape := ⟨2, ![1, 512]⟩
abbrev S256x512 : Shape := ⟨2, ![256, 512]⟩
abbrev S1x256 : Shape := ⟨2, ![1, 256]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S32x4096x256, .f32⟩
  | .hbm, ⟨1, _⟩ => ⟨S32x512x256, .f32⟩
  | .hbm, ⟨2, _⟩ => ⟨S32x512, .f32⟩
  | .hbm, ⟨3, _⟩ => ⟨S32x256x512, .f32⟩
  | .hbm, ⟨4, _⟩ => ⟨S32x256, .f32⟩
  | .hbm, ⟨5, _⟩ => ⟨S32x1x512, .f32⟩
  | .hbm, ⟨6, _⟩ => ⟨S32x1x256, .f32⟩
  | .hbm, ⟨7, _⟩ => ⟨S32x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S1x512x256, .f32⟩
  | .local _ .vmem, ⟨3, _⟩ => ⟨S1x512x256, .f32⟩
  | .local _ .vmem, ⟨4, _⟩ => ⟨S1x1x512, .f32⟩
  | .local _ .vmem, ⟨5, _⟩ => ⟨S1x1x512, .f32⟩
  | .local _ .vmem, ⟨6, _⟩ => ⟨S1x256x512, .f32⟩
  | .local _ .vmem, ⟨7, _⟩ => ⟨S1x256x512, .f32⟩
  | .local _ .vmem, ⟨8, _⟩ => ⟨S1x1x256, .f32⟩
  | .local _ .vmem, ⟨9, _⟩ => ⟨S1x1x256, .f32⟩
  | .local _ .vmem, ⟨10, _⟩ => ⟨S1x1024x256, .f32⟩
  | .local _ .vmem, ⟨11, _⟩ => ⟨S1x1024x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S32x512_S32x1x512_0_2 : S32x512.BroadcastsInDim S32x1x512 (![0, 2] : Fin 2 → Fin S32x1x512.rank)
  bcast_S32x256_S32x1x256_0_2 : S32x256.BroadcastsInDim S32x1x256 (![0, 2] : Fin 2 → Fin S32x1x256.rank)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  bitsLt_bf16_f32 : FTy.bits .bf16 < FTy.bits .f32
  broadcasts_S1x512_S1024x512 : S1x512.Broadcasts S1024x512
  broadcasts_S1x256_S1024x256 : S1x256.Broadcasts S1024x256
  shapeCasts_S1024x256_S1x1024x256 : S1024x256.ShapeCasts S1x1024x256
  dot_S1024x256_S512x256_S1024x512_1_1_0_0_n_n_wf : DotDims.WF S1024x256 S512x256 S1024x512 [1] [1] [0] [0] [] []
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x4096x256.size a
  hwx0_0 : ∀ i : grid0.Coords, EltTy.bits .f32 = 32 ∨ (Rect.block (s := S32x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .f32 = 32 ∨ (Rect.block (s := S32x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S32x256x512.size a
  hwx0_3 : ∀ i : grid0.Coords, EltTy.bits .f32 = 32 ∨ (Rect.block (s := S32x256x512) S1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S32x4096x256.size a
  hwx0_5 : ∀ i : grid0.Coords, EltTy.bits .f32 = 32 ∨ (Rect.block (s := S32x4096x256) S1x1024x256.size (cc0_transform_5 i) (hinb0_5 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S32x4096x512 : Shape := ⟨3, ![32, 4096, 512]⟩
abbrev S32x1x512 : Shape := ⟨3, ![32, 1, 512]⟩
abbrev S_ : Shape := ⟨0, ![]⟩
abbrev S32x1x256 : Shape := ⟨3, ![32, 1, 256]⟩

abbrev nBuf : Space → Nat
  | .hbm => 23
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x512x256, .f32⟩
  | .hbm, ⟨2, _⟩ => ⟨S32x512, .f32⟩
  | .hbm, ⟨3, _⟩ => ⟨S32x256x512, .f32⟩
  | .hbm, ⟨4, _⟩ => ⟨S32x256, .f32⟩
  | .hbm, ⟨5, _⟩ => ⟨S32x4096x512, .f32⟩
  | .hbm, ⟨6, _⟩ => ⟨S32x1x512, .f32⟩
  | .hbm, ⟨7, _⟩ => ⟨S32x4096x512, .f32⟩
  | .hbm, ⟨8, _⟩ => ⟨S32x4096x512, .f32⟩
  | .hbm, ⟨9, _⟩ => ⟨S32x4096x512, .f32⟩
  | .hbm, ⟨10, _⟩ => ⟨S32x4096x512, .f32⟩
  | .hbm, ⟨11, _⟩ => ⟨S_, .f32⟩
  | .hbm, ⟨12, _⟩ => ⟨S32x4096x512, .f32⟩
  | .hbm, ⟨13, _⟩ => ⟨S32x4096x512, .f32⟩
  | .hbm, ⟨14, _⟩ => ⟨S_, .f32⟩
  | .hbm, ⟨15, _⟩ => ⟨S32x4096x512, .f32⟩
  | .hbm, ⟨16, _⟩ => ⟨S32x4096x512, .f32⟩
  | .hbm, ⟨17, _⟩ => ⟨S32x4096x512, .f32⟩
  | .hbm, ⟨18, _⟩ => ⟨S32x4096x256, .f32⟩
  | .hbm, ⟨19, _⟩ => ⟨S32x1x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S32x512_S32x1x512_0_2 : S32x512.BroadcastsInDim S32x1x512 (![0, 2] : Fin 2 → Fin S32x1x512.rank)
  bcast_S32x1x512_S32x4096x512_0_1_2 : S32x1x512.BroadcastsInDim S32x4096x512 (![0, 1, 2] : Fin 3 → Fin S32x4096x512.rank)
  bcast_S_S32x4096x512 : S_.BroadcastsInDim S32x4096x512 (![] : Fin 0 → Fin S32x4096x512.rank)
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  dot_S32x4096x256_S32x512x256_S32x4096x512_2_2_1_1_0_0_wf : DotDims.WF S32x4096x256 S32x512x256 S32x4096x512 [2] [2] [1] [1] [0] [0]
  dot_S32x4096x512_S32x256x512_S32x4096x256_2_2_1_1_0_0_wf : DotDims.WF S32x4096x512 S32x256x512 S32x4096x256 [2] [2] [1] [1] [0] [0]

variable [Facts₀]

def dot_S32x4096x256_S32x512x256_S32x4096x512_2_2_1_1_0_0 : DotDims S32x4096x256 S32x512x256 S32x4096x512 where
  lhsContracting := [2]
  rhsContracting := [2]
  lhsNonContracting := [1]
  rhsNonContracting := [1]
  lhsBatch := [0]
  rhsBatch := [0]
  wf := dot_S32x4096x256_S32x512x256_S32x4096x512_2_2_1_1_0_0_wf
def dot_S32x4096x512_S32x256x512_S32x4096x256_2_2_1_1_0_0 : DotDims S32x4096x512 S32x256x512 S32x4096x256 where
  lhsContracting := [2]
  rhsContracting := [2]
  lhsNonContracting := [1]
  rhsNonContracting := [1]
  lhsBatch := [0]
  rhsBatch := [0]
  wf := dot_S32x4096x512_S32x256x512_S32x4096x256_2_2_1_1_0_0_wf

class Facts : Prop extends Facts₀ where

variable [Facts]
-- ==== Proof.Spec.lean ====
/-
  The function that both programs compute, written once over the extended reals.

  There are 32 independent two-layer perceptrons ("experts"); expert `n` owns the token block `x[n]` (4096 tokens of
  width 256), a first layer `W1[n]` (512 × 256) with bias `b1[n]`, and a second layer `W2[n]` (256 × 512) with bias
  `b2[n]`. For a token `t` and a hidden unit `h` the pre-activation is

      pre[n,t,h] = (Σ_k x[n,t,k] · W1[n,h,k]) + b1[n,h],

  the activation is `silu z = z · logistic z` with `logistic z = 1 / (1 + e^(-z))`, and the result adds the second layer,
  its bias and the residual:

      out[n,t,d] = ((Σ_h silu(pre[n,t,h]) · W2[n,d,h]) + b2[n,d]) + x[n,t,d].

  Both sums are finite sums in the commutative monoid of the extended reals, so no grouping or order is recorded, and the
  parenthesization of the three outer summands is the one both programs use. Nothing here needs the inputs finite.
-/
import Idealize.ShloMosaic.PureOps.Ideal
import Idealize.ShloMosaic.Lib.ValueIdx
import Idealize.ShloMosaic.Lib.IdealHost

noncomputable section

namespace Cert.Mlp

open Idealize.ShloMosaic Idealize.ShloMosaic.ValueIdx
open scoped BigOperators

/-- The token blocks, and the result: 32 experts × 4096 tokens × 256 features. -/
abbrev Tok : Shape := ⟨3, ![32, 4096, 256]⟩
/-- First-layer weights: 32 experts × 512 hidden units × 256 features. -/
abbrev Lay1 : Shape := ⟨3, ![32, 512, 256]⟩
/-- First-layer biases: 32 experts × 512 hidden units. -/
abbrev Bias1 : Shape := ⟨2, ![32, 512]⟩
/-- Second-layer weights: 32 experts × 256 features × 512 hidden units. -/
abbrev Lay2 : Shape := ⟨3, ![32, 256, 512]⟩
/-- Second-layer biases: 32 experts × 256 features. -/
abbrev Bias2 : Shape := ⟨2, ![32, 256]⟩

/-- The sigmoid-weighted linear unit on the extended reals: `z · 1 / (1 + e^(-z))`. -/
def silu (z : EReal) : EReal := z * Ideal.logistic z

/-- A vector unit's `z · logistic z` is `silu z`: the ideal instance's logistic is `Ideal.logistic`. -/
theorem silu_of_logistic (z : Ideal .f32) : FloatOps.mulf z (FloatOps.logistic z) = silu z := rfl

/-- The expansion `z · (1 / (1 + exp (-z)))` spelt with host operations and the bit pattern of `1.0` is `silu z`: the
    pattern `0x3F800000` denotes the extended real one, and `Ideal.logistic` is by definition that quotient. -/
theorem silu_of_expansion (z : Ideal .f32) :
    FloatOps.mulf z (FloatOps.hostDivf (FloatOps.ofBits .f32 0x3F800000#32 : Ideal .f32)
      (FloatOps.addf (FloatOps.ofBits .f32 0x3F800000#32 : Ideal .f32) (FloatOps.hostUnary .exp (FloatOps.hostNegf z)))) = silu z := by
  show z * Ideal.div (Ideal.ofBits .f32 0x3F800000#32) (Ideal.ofBits .f32 0x3F800000#32 + Ideal.exp (-z)) = z * Ideal.logistic z
  rw [Ideal.ofBits_one_f32]
  rfl

variable (x : Tok.Idx → EReal) (w1 : Lay1.Idx → EReal) (b1 : Bias1.Idx → EReal) (w2 : Lay2.Idx → EReal) (b2 : Bias2.Idx → EReal)

/-- The hidden pre-activation of expert `n` at token `t` and hidden unit `h`: the token's row against the unit's
    weight row, plus the unit's bias. -/
def hidden (n : Fin 32) (t : Fin 4096) (h : Fin 512) : EReal :=
  (∑ k : Fin 256, x (ix3 n t k) * w1 (ix3 n h k)) + b1 (ix2 n h)

/-- The result of expert `n` at token `t` and feature `d`: the activated hidden row against the feature's second-layer
    weight row, plus the feature's bias, plus the residual. -/
def outAt (n : Fin 32) (t : Fin 4096) (d : Fin 256) : EReal :=
  ((∑ h : Fin 512, silu (hidden x w1 b1 n t h) * w2 (ix3 n d h)) + b2 (ix2 n d)) + x (ix3 n t d)

/-- The whole result array, index by index. -/
def out : Tok.Idx → EReal := fun i => outAt x w1 b1 w2 b2 (i 0) (i 1) (i 2)

theorem out_apply (n : Fin 32) (t : Fin 4096) (d : Fin 256) :
    out x w1 b1 w2 b2 (ix3 n t d) = outAt x w1 b1 w2 b2 n t d := rfl

end Cert.Mlp

end
-- ==== Proof.Reference.lean ====
/-
  The reference's result is the specification `Cert.Mlp.out`.

  The reference computes, over whole arrays: a batched contraction of `x` with `W1` over the feature axis (batch axis the
  expert), plus `b1` broadcast along the token axis; then `z · (1 / (1 + exp (-z)))` element by element; then a batched
  contraction with `W2` over the hidden axis, plus `b2` broadcast along the token axis, plus `x`. Read at one index
  `(n, t, d)` each batched contraction is a finite sum over its contracted coordinate, each broadcast reads its operand at
  the coordinates it keeps, and the element-wise operations are the extended reals' own. What remains is to see that the
  operand indices the contractions and broadcasts compose to are the coordinates the specification names: the first
  contraction reads `x` at `(n, t, k)` and `W1` at `(n, h, k)`, the first bias is read at `(n, h)`, the second
  contraction reads the activated hidden array at `(n, t, h)` and `W2` at `(n, d, h)`, the second bias is read at
  `(n, d)`.
-/
import proofs.«101220_j45775761441336_1_alg».proof.Proof.Gen.ReferenceIdeal.Read
import proofs.«101220_j45775761441336_1_alg».proof.Proof.Spec

noncomputable section

namespace Cert.Mlp.Reference

open Idealize.ShloMosaic Idealize.ShloMosaic.ValueIdx Cert.ReferenceIdeal Cert.ReferenceIdeal.Read Cert.Mlp
open scoped BigOperators

/-- Inside the second contraction at hidden unit `h`, the first contraction's left operand is `x` at `(n, t, k)`. -/
theorem token_row (i : S32x4096x256.Idx) (h : Fin 512) (k : Fin 256) :
    lidx_main_v0 (lidx_main_v5 i h) k = ix3 (i 0) (i 1) k := by
  funext a; match a with | ⟨0, _⟩ => rfl | ⟨1, _⟩ => rfl | ⟨2, _⟩ => rfl

/-- … and its right operand is `W1` at `(n, h, k)`. -/
theorem layer1_row (i : S32x4096x256.Idx) (h : Fin 512) (k : Fin 256) :
    ridx_main_v0 (lidx_main_v5 i h) k = ix3 (i 0) h k := by
  funext a; match a with | ⟨0, _⟩ => rfl | ⟨1, _⟩ => rfl | ⟨2, _⟩ => rfl

/-- The first bias, broadcast twice (a unit token axis, then all tokens), is read at `(n, h)`. -/
theorem bias1_at (i : S32x4096x256.Idx) (h : Fin 512) :
    idx_main_v1 (idx_main_v2 (lidx_main_v5 i h)) = ix2 (i 0) h := by
  funext a; match a with | ⟨0, _⟩ => rfl | ⟨1, _⟩ => rfl

/-- The second contraction's right operand is `W2` at `(n, d, h)`. -/
theorem layer2_row (i : S32x4096x256.Idx) (h : Fin 512) :
    ridx_main_v5 i h = ix3 (i 0) (i 2) h := by
  funext a; match a with | ⟨0, _⟩ => rfl | ⟨1, _⟩ => rfl | ⟨2, _⟩ => rfl

/-- The second bias, broadcast twice, is read at `(n, d)`. -/
theorem bias2_at (i : S32x4096x256.Idx) :
    idx_main_v6 (idx_main_v7 i) = ix2 (i 0) (i 2) := by
  funext a; match a with | ⟨0, _⟩ => rfl | ⟨1, _⟩ => rfl

/-- The reference's last stage, as a function of the five argument arrays, is the specification: every operation read at
    an index, the composed indices named, the host's spelling of the activation recognised as `silu`. -/
theorem result_eq_out (x0 : (⟨S32x4096x256, .f32⟩ : BufTy).Contents (Elt Ideal)) (x1 : (⟨S32x512x256, .f32⟩ : BufTy).Contents (Elt Ideal))
    (x2 : (⟨S32x512, .f32⟩ : BufTy).Contents (Elt Ideal)) (x3 : (⟨S32x256x512, .f32⟩ : BufTy).Contents (Elt Ideal))
    (x4 : (⟨S32x256, .f32⟩ : BufTy).Contents (Elt Ideal)) :
    val_main_v9 (F := Ideal) x0 x1 x2 x3 x4 = out x0 x1 x2 x3 x4 := by
  funext i
  rw [val_main_v9_apply, val_main_v8_apply, val_main_v5_apply, val_main_v7_apply, val_main_v6_apply]
  simp only [val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v3_apply, val_main_v0_apply, val_main_v2_apply, val_main_v1_apply, silu_of_expansion,
    token_row, layer1_row, bias1_at, layer2_row, bias2_at]
  conv_lhs => arg 2; rw [eq_ix3 i]
  rfl

end Cert.Mlp.Reference

end
-- ==== Proof.Body.lean ====
/-
  What the kernel body stores, read at one element of its output block.

  At one grid point the body holds one expert's data: a block of 1024 token rows `v0` (1 × 1024 × 256), the expert's whole
  first layer `v2` (1 × 512 × 256) and its bias row `v4` (1 × 1 × 512), the whole second layer `v6` (1 × 256 × 512) and its
  bias row `v8` (1 × 1 × 256). It drops the unit leading axes, multiplies the token rows by the first layer on the matrix
  unit (both contractions run over the operands' last axis, into a zero accumulator), adds the bias row to every token row,
  applies `z · logistic z`, multiplies by the second layer, adds the second bias row and the token rows themselves, and
  restores the unit axis. At the extended reals a change of float format is the identity and a matrix product into a zero
  accumulator is the plain finite sum over the contracted coordinate, so the stored element at `(u, p, q)` is

      ((Σ_h silu((Σ_k v0[0,p,k] · v2[0,h,k]) + v4[0,0,h]) · v6[0,q,h]) + v8[0,0,q]) + v0[0,p,q].

  The last lemma restates this against the specification: if the five blocks are the rows of whole arrays that an output
  index `i = (n, t, d)` selects, the stored element is `Cert.Mlp.out` at `i`.
-/
import proofs.«101220_j45775761441336_1_alg».proof.Proof.Gen.KernelIdeal.Skeleton
import proofs.«101220_j45775761441336_1_alg».proof.Proof.Spec
import Idealize.ShloMosaic.Lib.ValueLayout
import Idealize.ShloMosaic.Lib.Pipeline.Value
import Idealize.ShloMosaic.PureOps.Ideal.Laws

noncomputable section

namespace Cert.Mlp.Body

open Idealize.ShloMosaic Idealize.ShloMosaic.ValueIdx Cert.KernelIdeal Cert.KernelIdeal.Gen Cert.Mlp
open Cert.KernelIdeal.Facts₀
open scoped BigOperators

/-! ## The first product: token rows (1024 × 256) against first-layer rows (512 × 256), contracted over the features -/

/-- The left operand's row coordinate is the output's row. -/
theorem lhs1_0 (i : S1024x512.Idx) (q : dot_S1024x256_S512x256_S1024x512_1_1_0_0_n_n.contr.Idx) :
    (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
/-- The left operand's column coordinate is the contracted coordinate. -/
theorem lhs1_1 (i : S1024x512.Idx) (q : dot_S1024x256_S512x256_S1024x512_1_1_0_0_n_n.contr.Idx) :
    (dot_S1024x256_S512x256_S1024x512_1_1_0_0_n_n.lhsIdx i q 1).val = (q ⟨0, by decide⟩).val :=
  dot_S1024x256_S512x256_S1024x512_1_1_0_0_n_n.lhsIdx_val_of_single rfl i q
/-- The right operand's row coordinate is the output's column: the product is against the transpose. -/
theorem rhs1_0 (i : S1024x512.Idx) (q : dot_S1024x256_S512x256_S1024x512_1_1_0_0_n_n.contr.Idx) :
    (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
/-- The right operand's column coordinate is the contracted coordinate. -/
theorem rhs1_1 (i : S1024x512.Idx) (q : dot_S1024x256_S512x256_S1024x512_1_1_0_0_n_n.contr.Idx) :
    (dot_S1024x256_S512x256_S1024x512_1_1_0_0_n_n.rhsIdx i q 1).val = (q ⟨0, by decide⟩).val :=
  dot_S1024x256_S512x256_S1024x512_1_1_0_0_n_n.rhsIdx_val_of_single rfl i q

/-- Into a zero accumulator, the first product at `(p, h)` is `Σ_k a[p,k] · b[h,k]`. -/
theorem matmul1_apply (a : FVec Ideal S1024x256 .bf16) (b : FVec Ideal S512x256 .bf16) (p : Fin 1024) (h : Fin 512) :
    matmul dot_S1024x256_S512x256_S1024x512_1_1_0_0_n_n none a b (constant (F := Ideal) S1024x512 .f32 0x00000000#32) (ix2 p h)
      = ∑ k : Fin 256, a (ix2 p k) * b (ix2 h k) := by
  simp only [matmul]
  rw [Ideal.matmul_constant_zero_apply, ← Equiv.sum_comp (contrEquiv1 dot_S1024x256_S512x256_S1024x512_1_1_0_0_n_n 256 rfl rfl).symm]
  refine Finset.sum_congr rfl fun k _ => ?_
  have hk := contrEquiv1_symm_val dot_S1024x256_S512x256_S1024x512_1_1_0_0_n_n 256 rfl rfl k
  have el : dot_S1024x256_S512x256_S1024x512_1_1_0_0_n_n.lhsIdx (ix2 p h) ((contrEquiv1 dot_S1024x256_S512x256_S1024x512_1_1_0_0_n_n 256 rfl rfl).symm k) = ix2 p k := funext fun a => Fin.ext (by
    match a with
    | ⟨0, _⟩ => exact lhs1_0 _ _
    | ⟨1, _⟩ => exact (lhs1_1 _ _).trans hk)
  have er : dot_S1024x256_S512x256_S1024x512_1_1_0_0_n_n.rhsIdx (ix2 p h) ((contrEquiv1 dot_S1024x256_S512x256_S1024x512_1_1_0_0_n_n 256 rfl rfl).symm k) = ix2 h k := funext fun a => Fin.ext (by
    match a with
    | ⟨0, _⟩ => exact rhs1_0 _ _
    | ⟨1, _⟩ => exact (rhs1_1 _ _).trans hk)
  rw [el, er]

/-! ## The second product: activated hidden rows (1024 × 512) against second-layer rows (256 × 512), contracted over the hidden units -/

/-- The left operand's row coordinate is the output's row. -/
theorem lhs2_0 (i : S1024x256.Idx) (q : dot_S1024x512_S256x512_S1024x256_1_1_0_0_n_n.contr.Idx) :
    (dot_S1024x512_S256x512_S1024x256_1_1_0_0_n_n.lhsIdx i q 0).val = (i 0).val := by
  unfold DotDims.lhsIdx
  rw [dif_neg (show ¬(0 : Fin S1024x512.rank) ∈ dot_S1024x512_S256x512_S1024x256_1_1_0_0_n_n.lhsBatch by decide), dif_pos (show (0 : Fin S1024x512.rank) ∈ dot_S1024x512_S256x512_S1024x256_1_1_0_0_n_n.lhsNonContracting by decide)]
  rfl
/-- The left operand's column coordinate is the contracted coordinate. -/
theorem lhs2_1 (i : S1024x256.Idx) (q : dot_S1024x512_S256x512_S1024x256_1_1_0_0_n_n.contr.Idx) :
    (dot_S1024x512_S256x512_S1024x256_1_1_0_0_n_n.lhsIdx i q 1).val = (q ⟨0, by decide⟩).val :=
  dot_S1024x512_S256x512_S1024x256_1_1_0_0_n_n.lhsIdx_val_of_single rfl i q
/-- The right operand's row coordinate is the output's column. -/
theorem rhs2_0 (i : S1024x256.Idx) (q : dot_S1024x512_S256x512_S1024x256_1_1_0_0_n_n.contr.Idx) :
    (dot_S1024x512_S256x512_S1024x256_1_1_0_0_n_n.rhsIdx i q 0).val = (i 1).val := by
  unfold DotDims.rhsIdx
  rw [dif_neg (show ¬(0 : Fin S256x512.rank) ∈ dot_S1024x512_S256x512_S1024x256_1_1_0_0_n_n.rhsBatch by decide), dif_pos (show (0 : Fin S256x512.rank) ∈ dot_S1024x512_S256x512_S1024x256_1_1_0_0_n_n.rhsNonContracting by decide)]
  rfl
/-- The right operand's column coordinate is the contracted coordinate. -/
theorem rhs2_1 (i : S1024x256.Idx) (q : dot_S1024x512_S256x512_S1024x256_1_1_0_0_n_n.contr.Idx) :
    (dot_S1024x512_S256x512_S1024x256_1_1_0_0_n_n.rhsIdx i q 1).val = (q ⟨0, by decide⟩).val :=
  dot_S1024x512_S256x512_S1024x256_1_1_0_0_n_n.rhsIdx_val_of_single rfl i q

/-- Into a zero accumulator, the second product at `(p, q)` is `Σ_h a[p,h] · b[q,h]`. -/
theorem matmul2_apply (a : FVec Ideal S1024x512 .bf16) (b : FVec Ideal S256x512 .bf16) (p : Fin 1024) (q : Fin 256) :
    matmul dot_S1024x512_S256x512_S1024x256_1_1_0_0_n_n none a b (constant (F := Ideal) S1024x256 .f32 0x00000000#32) (ix2 p q)
      = ∑ k : Fin 512, a (ix2 p k) * b (ix2 q k) := by
  simp only [matmul]
  rw [Ideal.matmul_constant_zero_apply, ← Equiv.sum_comp (contrEquiv1 dot_S1024x512_S256x512_S1024x256_1_1_0_0_n_n 512 rfl rfl).symm]
  refine Finset.sum_congr rfl fun k _ => ?_
  have hk := contrEquiv1_symm_val dot_S1024x512_S256x512_S1024x256_1_1_0_0_n_n 512 rfl rfl k
  have el : dot_S1024x512_S256x512_S1024x256_1_1_0_0_n_n.lhsIdx (ix2 p q) ((contrEquiv1 dot_S1024x512_S256x512_S1024x256_1_1_0_0_n_n 512 rfl rfl).symm k) = ix2 p k := funext fun a => Fin.ext (by
    match a with
    | ⟨0, _⟩ => exact lhs2_0 _ _
    | ⟨1, _⟩ => exact (lhs2_1 _ _).trans hk)
  have er : dot_S1024x512_S256x512_S1024x256_1_1_0_0_n_n.rhsIdx (ix2 p q) ((contrEquiv1 dot_S1024x512_S256x512_S1024x256_1_1_0_0_n_n 512 rfl rfl).symm k) = ix2 q k := funext fun a => Fin.ext (by
    match a with
    | ⟨0, _⟩ => exact rhs2_0 _ _
    | ⟨1, _⟩ => exact (rhs2_1 _ _).trans hk)
  rw [el, er]

/-! ## The stored value at an element -/

/-- The vector logistic at an element is the extended reals' logistic of the element. -/
theorem logistic_apply {s : Shape} {φ : FTy} (a : FVec Ideal s φ) (i : s.Idx) : logistic a i = Ideal.logistic (a i) := rfl

/-- The stored block at `(u, p, q)`: the two sums, the activation between them, both bias rows and the residual, over the
    loaded blocks' elements. Every layout step (a unit axis dropped or restored, one row broadcast over 1024) reads its operand
    at the evident coordinates; the format changes are the identity. -/
theorem pay_apply (v0 : Vec Ideal S1x1024x256 .f32) (v2 : Vec Ideal S1x512x256 .f32) (v4 : Vec Ideal S1x1x512 .f32)
    (v6 : Vec Ideal S1x256x512 .f32) (v8 : Vec Ideal S1x1x256 .f32) (u : Fin 1) (p : Fin 1024) (q : Fin 256) :
    k0_pay1 v0 v2 v4 v6 v8 (ix3 u p q)
      = ((∑ h : Fin 512, silu ((∑ k : Fin 256, v0 (ix3 (0 : Fin 1) p k) * v2 (ix3 (0 : Fin 1) h k)) + v4 (ix3 (0 : Fin 1) (0 : Fin 1) h)) * v6 (ix3 (0 : Fin 1) q h))
          + v8 (ix3 (0 : Fin 1) (0 : Fin 1) q)) + v0 (ix3 (0 : Fin 1) p q) := by
  unfold k0_pay1
  rw [shapeCast_ab_1ab_apply, addf_apply, addf_apply, matmul2_apply]
  simp only [truncf_apply, mulf_apply, addf_apply, logistic_apply, matmul1_apply, broadcastTo_1b_ab_apply, shapeCast_1ab_ab_apply]
  rfl

/-- Against the specification: when the loaded blocks are the rows of whole arrays `X, W1, b1, W2, b2` that the output index
    `i` selects — token row `(i 0, i 1)` of `X`, expert `i 0`'s layers and bias rows, column `i 2` of the second layer and of its
    bias — the stored element is `out X W1 b1 W2 b2 i`. -/
theorem point_eq (X : Tok.Idx → EReal) (W1 : Lay1.Idx → EReal) (b1 : Bias1.Idx → EReal) (W2 : Lay2.Idx → EReal) (b2 : Bias2.Idx → EReal)
    (v0 : Vec Ideal S1x1024x256 .f32) (v2 : Vec Ideal S1x512x256 .f32) (v4 : Vec Ideal S1x1x512 .f32)
    (v6 : Vec Ideal S1x256x512 .f32) (v8 : Vec Ideal S1x1x256 .f32) (u : Fin 1) (p : Fin 1024) (q : Fin 256) (i : Tok.Idx)
    (hx : ∀ k : Fin 256, v0 (ix3 (0 : Fin 1) p k) = X (ix3 (i 0) (i 1) k))
    (hw1 : ∀ (h : Fin 512) (k : Fin 256), v2 (ix3 (0 : Fin 1) h k) = W1 (ix3 (i 0) h k))
    (hb1 : ∀ h : Fin 512, v4 (ix3 (0 : Fin 1) (0 : Fin 1) h) = b1 (ix2 (i 0) h))
    (hw2 : ∀ h : Fin 512, v6 (ix3 (0 : Fin 1) q h) = W2 (ix3 (i 0) (i 2) h))
    (hb2 : v8 (ix3 (0 : Fin 1) (0 : Fin 1) q) = b2 (ix2 (i 0) (i 2)))
    (hres : v0 (ix3 (0 : Fin 1) p q) = X i) :
    k0_pay1 v0 v2 v4 v6 v8 (ix3 u p q) = out X W1 b1 W2 b2 i := by
  rw [pay_apply, hb2, hres]
  simp only [hx, hw1, hb1, hw2]
  conv_lhs => arg 2; rw [eq_ix3 i]
  rfl

end Cert.Mlp.Body
end
-- ==== Proof.Blocks.lean ====
/-
  From what each grid point writes to the whole result array.

  The grid has 32 × 4 points; point `(n, s)` stages token rows `1024·s … 1024·s + 1023` of expert `n` (the first input's
  block, and the output's), and expert `n`'s whole first layer, first bias row, second layer and second bias row (the other
  four inputs: their block index is `(n, 0, 0)` whatever `s` is). The two bias arrays reach the kernel with a unit middle
  axis inserted by the host (`[32, 512] → [32, 1, 512]`, `[32, 256] → [32, 1, 256]`), so a staged bias row `(n, 0, h)` is
  the argument's entry `(n, h)`.

  An element `(u, p, q)` of the output block at point `(n, s)` is the array index `(n, 1024·s + p, q)`, and there the input
  blocks are exactly the rows the specification reads at that index: so the point writes the block of `Cert.Mlp.out` (of
  the argument arrays) that its index map names. The output blocks tile the array — index `(n, t, d)` lies in the block of
  point `(n, t / 1024)` — and distinct points write disjoint blocks, so after the run the result array is `Cert.Mlp.out`
  of the arguments, everywhere.
-/
import proofs.«101220_j45775761441336_1_alg».proof.Proof.Gen.KernelIdeal.Value
import proofs.«101220_j45775761441336_1_alg».proof.Proof.Body
import Idealize.ShloMosaic.Lib.StableHlo.Run

noncomputable section

namespace Cert.Mlp.Kernel

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The zero offsets of a whole-block access, as a constant function. -/
theorem origin : (![0, 0, 0] : Fin 3 → Nat) = fun _ => 0 := funext fun a => by fin_cases a <;> rfl

/-- When the kernel starts, the first staged bias array is the argument with a unit middle axis inserted. -/
theorem bias1_staged (c : Dev nD) :
    (V m c main_v0 : S32x1x512.Idx → EReal) = broadcastInDim S32x1x512 ![0, 2] bcast_S32x512_S32x1x512_0_2 (m ((c : Thread nD τ).loc main_arg2)) := by
  dsimp only [Gen.V, Gen.hostOps0]; after_results

/-- … and so is the second. -/
theorem bias2_staged (c : Dev nD) :
    (V m c main_v1 : S32x1x256.Idx → EReal) = broadcastInDim S32x1x256 ![0, 2] bcast_S32x256_S32x1x256_0_2 (m ((c : Thread nD τ).loc main_arg4)) := by
  dsimp only [Gen.V, Gen.hostOps0]; after_results

/-- The index maps, decided over the 128 grid points: every input's block index has the output's expert coordinate; the token
    block moves with the output's; the per-expert blocks sit at the origin of their other axes; the output's block index
    ranges over `32 × 4 × 1`. -/
theorem maps : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) ≤ 31 ∧ win0_5.index t (1 : Fin 3) ≤ 3 ∧ win0_5.index t (2 : Fin 3) = 0 :=
  (by decide +kernel : ∀ t : Fin grid0.N, _)

/-- Every block index of the `32 × 4` box is some grid point's. -/
theorem onto : ∀ (q0 : Fin 32) (q1 : Fin 4), ∃ t : Fin cfg0.N, win0_5.index t = ![q0.val, q1.val, 0] :=
  (by decide +kernel : ∀ (q0 : Fin 32) (q1 : Fin 4), ∃ t : Fin grid0.N, win0_5.index t = ![q0.val, q1.val, 0])

/-- WHAT A POINT WRITES: the block of `out` (of the arrays as the kernel finds them, the biases as the arguments) that the
    output's index map names at that point. Element by element: the stored value is the body's function of the five input
    blocks, and each input block, read where the body reads it, is the row of its array that the element's array index
    selects (a block coordinate is block index × block extent + the coordinate inside the block). -/
theorem flushed_eq (c : Dev nD) (t : Fin cfg0.N) :
    (dats m 0 c).flushed 5 t = ((cfg0.win 5).blk t).view.read (Elt Ideal)
      (out (V m c main_arg0) (V m c main_arg1) (m ((c : Thread nD τ).loc main_arg2)) (V m c main_arg3) (m ((c : Thread nD τ).loc main_arg4))) := by
  rw [Cert.KernelIdeal.Value.flushed5]
  unfold out0_5
  rw [View.canon_unit_zero origin]
  simp only [View.ld_unit_zero (S := S1x1024x256) origin, View.ld_unit_zero (S := S1x512x256) origin, View.ld_unit_zero (S := S1x1x512) origin,
    View.ld_unit_zero (S := S1x256x512) origin, View.ld_unit_zero (S := S1x1x256) origin]
  obtain ⟨a00, a01, a02, a10, a11, a12, a20, a21, a22, a30, a31, a32, a40, a41, a42, r0, r1, r2⟩ := maps t
  refine funext fun (j : S1x1024x256.Idx) => ?_
  obtain ⟨u, p, q, rfl⟩ : ∃ (u : Fin 1) (p : Fin 1024) (q : Fin 256), j = ix3 u p q := ⟨j 0, j 1, j 2, eq_ix3 j⟩
  have hu : u.val = 0 := by have := u.isLt; omega
  show k0_pay1 (iblk m c 0 t) (iblk m c 1 t) (iblk m c 2 t) (iblk m c 3 t) (iblk m c 4 t) (ix3 u p q)
      = out (V m c main_arg0) (V m c main_arg1) (m ((c : Thread nD τ).loc main_arg2)) (V m c main_arg3) (m ((c : Thread nD τ).loc main_arg4))
          (((cfg0.win 5).blk t).view.emb (ix3 u p q))
  refine Body.point_eq (V m c main_arg0) (V m c main_arg1) (m ((c : Thread nD τ).loc main_arg2)) (V m c main_arg3) (m ((c : Thread nD τ).loc main_arg4))
    (iblk m c 0 t) (iblk m c 1 t) (iblk m c 2 t) (iblk m c 3 t) (iblk m c 4 t) u p q (((cfg0.win 5).blk t).view.emb (ix3 u p q)) ?_ ?_ ?_ ?_ ?_ ?_
  · intro k
    show V m c main_arg0 (((cfg0.win 0).blk t).view.emb (ix3 (0 : Fin 1) p k)) = V m c main_arg0 _
    refine congrArg _ (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 1024 + 1 * p.val = win0_5.index t (1 : Fin 3) * 1024 + 1 * p.val; omega
    | ⟨2, _⟩ => show win0_0.index t (2 : Fin 3) * 256 + 1 * k.val = k.val; omega
  · intro h k
    show V m c main_arg1 (((cfg0.win 1).blk t).view.emb (ix3 (0 : Fin 1) h k)) = V m c main_arg1 _
    refine congrArg _ (funext fun a => Fin.ext ?_)
    match a with
    | ⟨0, _⟩ => show win0_1.index t (0 : Fin 3) * 1 + 1 * 0 = win0_5.index t (0 : Fin 3) * 1 + 1 * u.val; omega
    | ⟨1, _⟩ => show win0_1.index t (1 : Fin 3) * 512 + 1 * h.val = h.val; omega
    | ⟨2, _⟩ => show win0_1.index t (2 : Fin 3) * 256 + 1 * k.val = k.val; omega
  · intro h
    show V m c main_v0 (((cfg0.win 2).blk t).view.emb (ix3 (0 : Fin 1) (0 : Fin 1) h)) = _
    rw [bias1_staged]
    refine broadcastInDim_apply _ bcast_S32x512_S32x1x512_0_2 _ _ _ (fun a => ?_)
    match a with
    | ⟨0, _⟩ => show win0_5.index t (0 : Fin 3) * 1 + 1 * u.val = if (32 : Nat) = 1 then 0 else win0_2.index t (0 : Fin 3) * 1 + 1 * 0; rw [if_neg (by decide)]; omega
    | ⟨1, _⟩ => show h.val = if (512 : Nat) = 1 then 0 else win0_2.index t (2 : Fin 3) * 512 + 1 * h.val; rw [if_neg (by decide)]; omega
  · intro h
    show V m c main_arg3 (((cfg0.win 3).blk t).view.emb (ix3 (0 : Fin 1) q h)) = V m c main_arg3 _
    refine congrArg _ (funext fun a => Fin.ext ?_)
    match a with
    | ⟨0, _⟩ => show win0_3.index t (0 : Fin 3) * 1 + 1 * 0 = win0_5.index t (0 : Fin 3) * 1 + 1 * u.val; omega
    | ⟨1, _⟩ => show win0_3.index t (1 : Fin 3) * 256 + 1 * q.val = win0_5.index t (2 : Fin 3) * 256 + 1 * q.val; omega
    | ⟨2, _⟩ => show win0_3.index t (2 : Fin 3) * 512 + 1 * h.val = h.val; omega
  · show V m c main_v1 (((cfg0.win 4).blk t).view.emb (ix3 (0 : Fin 1) (0 : Fin 1) q)) = _
    rw [bias2_staged]
    refine broadcastInDim_apply _ bcast_S32x256_S32x1x256_0_2 _ _ _ (fun a => ?_)
    match a with
    | ⟨0, _⟩ => show win0_5.index t (0 : Fin 3) * 1 + 1 * u.val = if (32 : Nat) = 1 then 0 else win0_4.index t (0 : Fin 3) * 1 + 1 * 0; rw [if_neg (by decide)]; omega
    | ⟨1, _⟩ => show win0_5.index t (2 : Fin 3) * 256 + 1 * q.val = if (256 : Nat) = 1 then 0 else win0_4.index t (2 : Fin 3) * 256 + 1 * q.val; rw [if_neg (by decide)]; omega
  · show V m c main_arg0 (((cfg0.win 0).blk t).view.emb (ix3 (0 : Fin 1) p q)) = V m c main_arg0 _
    refine congrArg _ (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 1024 + 1 * p.val = win0_5.index t (1 : Fin 3) * 1024 + 1 * p.val; omega
    | ⟨2, _⟩ => show win0_0.index t (2 : Fin 3) * 256 + 1 * q.val = win0_5.index t (2 : Fin 3) * 256 + 1 * q.val; omega

/-- An array index lies in a point's output block iff each coordinate lies in the block's range on its axis. -/
theorem mem_blk (t : Fin cfg0.N) (i : S32x4096x256.Idx) :
    i ∈ ((cfg0.win 5).blk t).view.set ↔ ∀ a : Fin 3, win0_5.index t a * S1x1024x256.size a ≤ (i a).val ∧ (i a).val < win0_5.index t a * S1x1024x256.size a + S1x1024x256.size a := by
  show i ∈ ((View.whole main_v2).slice (win0_5.rect t)).set ↔ _
  rw [View.set_slice_whole, Rect.mem_set_unit]
  exact Iff.rfl

/-- THE BLOCKS COVER THE ARRAY: index `(n, t, d)` is in the block of the point with block index `(n, t / 1024, 0)`. -/
theorem cover (i : S32x4096x256.Idx) : ∃ t : Fin cfg0.N, (cfg0.win 5).flush t = true ∧ i ∈ ((cfg0.win 5).blk t).view.set := by
  have hi0 : (i 0).val < 32 := (i 0).isLt
  have hi1 : (i 1).val < 4096 := (i 1).isLt
  have hi2 : (i 2).val < 256 := (i 2).isLt
  obtain ⟨t, ht⟩ := onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 256 ≤ (i 2).val ∧ (i 2).val < win0_5.index t (2 : Fin 3) * 256 + 256; omega

/-- THE RESULT ARRAY after the run is `out` of the five arguments as launched (the three staged arguments are untouched by the
    host operations before the kernel). -/
theorem final (c : Dev nD) : (dats m 0 c).arrAt 5 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  rw [(dats m 0 c).arrAt_eq_of_cover 5 _ (fun t _ => flushed_eq m c t) cover, V_main_arg0, V_main_arg1, V_main_arg3]

/-- The idealized kernel's run: every weakly fair execution terminates with the result array at `out` of the arguments and
    the arguments unchanged. -/
theorem run : θ_run defs (onTc (τ := τ) (main (F := Ideal))) ⟨m, fun _ => 0, ρ⟩ fun r => ∀ c : Dev nD,
      r.2.mem ((c : Thread nD τ).loc main_v2)
        = out (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Mlp.Kernel
end
-- ==== Proof.lean ====
/-
  The certificate of the 32-expert two-layer perceptron kernel against its jnp reference.

  Both programs compute, for expert `n`, token `t` and feature `d`,

      out[n,t,d] = ((Σ_h silu((Σ_k x[n,t,k] · W1[n,h,k]) + b1[n,h]) · W2[n,d,h]) + b2[n,d]) + x[n,t,d],   silu z = z · logistic z

  (Proof/Spec.lean). The kernel does it block by block — 1024 token rows of one expert per grid point, two matrix products
  with bf16 operands accumulated in f32, the activation as `z · logistic z` — and the reference with two batched contractions
  over whole arrays and the activation spelt `z · (1 / (1 + exp (-z)))`. Over the extended reals the format changes are the
  identity, a matrix product into a zero accumulator and a batched contraction are both the plain finite sum over the
  contracted coordinate, and `logistic` is by definition the quotient the reference spells; the tiling changes nothing
  because each output element depends only on rows that its own block stages. So the two results are the same function of
  the arguments, index by index, with the three outer summands grouped the same way on both sides; no algebraic law beyond
  reading the definitions is used, and the inputs' finiteness is never needed.

  The parts: Proof/Reference.lean (the reference's last stage is `out`), Proof/Body.lean (the element the kernel body
  stores), Proof/Blocks.lean (the blocks cover the result array, which therefore ends at `out`). The three frames are the
  generated ones (the reference's is its run with the result forgotten); the idealization rewrote nothing, so `preserves` is
  `True`.
-/
import proofs.«101220_j45775761441336_1_alg».proof.Defs
import proofs.«101220_j45775761441336_1_alg».proof.Proof.Gen.Kernel
import proofs.«101220_j45775761441336_1_alg».proof.Proof.Gen.Kernel.Skeleton
import proofs.«101220_j45775761441336_1_alg».proof.Proof.Gen.Kernel.Launch
import proofs.«101220_j45775761441336_1_alg».proof.Proof.Gen.Kernel.Points
import proofs.«101220_j45775761441336_1_alg».proof.Proof.Gen.Kernel.Frame
import proofs.«101220_j45775761441336_1_alg».proof.Proof.Gen.KernelIdeal
import proofs.«101220_j45775761441336_1_alg».proof.Proof.Gen.KernelIdeal.Skeleton
import proofs.«101220_j45775761441336_1_alg».proof.Proof.Gen.KernelIdeal.Launch
import proofs.«101220_j45775761441336_1_alg».proof.Proof.Gen.KernelIdeal.Points
import proofs.«101220_j45775761441336_1_alg».proof.Proof.Gen.KernelIdeal.Frame
import proofs.«101220_j45775761441336_1_alg».proof.Proof.Gen.ReferenceIdeal
import proofs.«101220_j45775761441336_1_alg».proof.Proof.Gen.Pre_finite_inputs
import proofs.«101220_j45775761441336_1_alg».proof.Proof.Gen.KernelIdeal.Value
import proofs.«101220_j45775761441336_1_alg».proof.Proof.Gen.ReferenceIdeal.Run
import proofs.«101220_j45775761441336_1_alg».proof.Proof.Gen.ReferenceIdeal.Read
import proofs.«101220_j45775761441336_1_alg».proof.Proof.Reference
import proofs.«101220_j45775761441336_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the idealized kernel ends with its result array at `out` of its
    arguments (Proof/Blocks.lean), and the reference with its result at its last stage of its own arguments, which is `out`
    of them (Proof/Reference.lean): the same array, since the arguments agree. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Mlp.Reference.result_eq_out,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
